-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S32768x512 : Shape := ⟨2, ![32768, 512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S32768x512, .f32⟩
  | .hbm, ⟨3, _⟩ => ⟨S32768x512, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x1x512x512_S32768x512 : S64x1x512x512.ShapeCasts S32768x512
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x1x512x512, .f32⟩
  | .hbm, ⟨3, _⟩ => ⟨S64x1x512x512, .f32⟩
  | .hbm, ⟨4, _⟩ => ⟨S_, .f32⟩
  | .hbm, ⟨5, _⟩ => ⟨S64x1x512x512, .f32⟩
  | .hbm, ⟨6, _⟩ => ⟨S64x1x512x512, .f32⟩
  | .hbm, ⟨7, _⟩ => ⟨S_, .f32⟩
  | .hbm, ⟨8, _⟩ => ⟨S64x1x512x512, .f32⟩
  | .hbm, ⟨9, _⟩ => ⟨S64x1x512x512, .f32⟩
  | .hbm, ⟨10, _⟩ => ⟨S_, .f32⟩
  | .hbm, ⟨11, _⟩ => ⟨S64x1x512x512, .f32⟩
  | .hbm, ⟨12, _⟩ => ⟨S64x1x512x512, .f32⟩
  | .hbm, ⟨13, _⟩ => ⟨S64x1x512x512, .f32⟩
  | .hbm, ⟨14, _⟩ => ⟨S64x1x512x512, .f32⟩
  | .hbm, ⟨15, _⟩ => ⟨S_, .f32⟩
  | .hbm, ⟨16, _⟩ => ⟨S64x1x512x512, .f32⟩
  | .hbm, ⟨17, _⟩ => ⟨S64x1x512x512, .f32⟩
  | .hbm, ⟨18, _⟩ => ⟨S_, .f32⟩
  | .hbm, ⟨19, _⟩ => ⟨S64x1x512x512, .f32⟩
  | .hbm, ⟨20, _⟩ => ⟨S64x1x512x512, .f32⟩
  | .hbm, ⟨21, _⟩ => ⟨S_, .f32⟩
  | .hbm, ⟨22, _⟩ => ⟨S64x1x512x512, .f32⟩
  | .hbm, ⟨23, _⟩ => ⟨S64x1x512x512, .f32⟩
  | .hbm, ⟨24, _⟩ => ⟨S64x1x512x512, .f32⟩
  | .hbm, ⟨25, _⟩ => ⟨S64x1x512x512, .f32⟩
  | .hbm, ⟨26, _⟩ => ⟨S64x1x512x512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts₀]

class Facts : Prop extends Facts₀ where

variable [Facts]
-- ==== Proof.CaseValues.lean ====
/-
  What one grid point leaves in the accumulator, case by case.

  The output block is a single entry that stays in its staging buffer from the first grid point to the last.
  At a point other than the first the body loads both input blocks and the accumulator and stores the
  accumulator plus the block's loss sum: one store that covers the block, so the buffer ends at that store's
  value, a function of the two blocks and of what the point before left (`out_later`).
  At the first point the body first stores zero, then reads it back and does the same: the later store covers
  the earlier, and what it read back as the accumulator is the zero just stored (`out_first`).
  Both hold for any float interpretation; nothing is computed here, the store's value is only named.
-/
import proofs.«120789_j76184129897141_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BceValue

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A point after the first: the accumulator `acc` becomes the body's sum value of the blocks `x`, `l` and `acc`. -/
theorem out_later (c : Dev nD) (i : grid0.Coords) (a1 : Memref sig .tc .vmem S1024x512 .f32) (h1 : a1.IsWhole)
    (a2 : Memref sig .tc .vmem S1024x512 .f32) (h2 : a2.IsWhole) (a3 : Memref sig .tc .vmem S1x1 .f32) (h3 : a3.IsWhole)
    (hc : ¬cond0_0 i) (x l : Vec F S1024x512 .f32) (acc : Vec F S1x1 .f32) :
    out0_B_2 c i a1 h1 a2 h2 a3 h3 hc x l acc = k0_pay2 x l acc := by
  unfold out0_B_2
  rw [View.read_writes_eq_canon _ _ _ (cover0_B_2 c i a1 h1 a2 h2 a3 h3 hc x l acc)]
  unfold kernelRun0_B
  dsimp only
  sl_unfold_words
  rw [View.canon_unit_zero origin]
  simp only [View.readAt_eq_ld, h1.read_unread, h2.read_unread, h3.read_unread,
    View.ld_unit_zero (S := S1024x512) origin, View.ld_unit_zero (S := S1x1) origin]

/-- The first point: the accumulator is reset, so it becomes the body's sum value of the blocks and the zero block. -/
theorem out_first (c : Dev nD) (i : grid0.Coords) (a1 : Memref sig .tc .vmem S1024x512 .f32) (h1 : a1.IsWhole)
    (a2 : Memref sig .tc .vmem S1024x512 .f32) (h2 : a2.IsWhole) (a3 : Memref sig .tc .vmem S1x1 .f32) (h3 : a3.IsWhole)
    (hc : cond0_0 i) (x l : Vec F S1024x512 .f32) :
    out0_A_2 c i a1 h1 a2 h2 a3 h3 hc x l = k0_pay2 x l (k0_pay1 (F := F)) := by
  unfold out0_A_2
  rw [View.read_writes_eq_canon _ _ _ (cover0_A_2 c i a1 h1 a2 h2 a3 h3 hc x l)]
  unfold kernelRun0_A
  dsimp only
  sl_unfold_words
  rw [View.canon_cons_unit_zero (S := S1x1) origin, View.readCov_unit_zero (S := S1x1) _ origin]
  simp only [View.readAt_eq_ld, h1.read_unread, h2.read_unread,
    View.ld_unit_zero (S := S1024x512) origin]

end Cert.KernelIdeal.BceValue

end
-- ==== Proof.BceTerm.lean ====
/-
  The loss of one element and how the total over the whole array splits into blocks.

  For a logit `x` and a label `l` the element's loss is
      l · log (σ x + ε) + (1 − l) · log ((1 − σ x) + ε),      σ x = 1 / (1 + e⁻ˣ),
  on the extended reals, with ε the value of one fixed f32 word (the same word wherever it occurs, so it is
  never evaluated). The quantity both programs compute is minus the sum of these losses over all
  64 · 1 · 512 · 512 elements, divided by their number.

  Two facts about that sum, neither of which needs the entries to be finite (a finite sum in a commutative
  monoid may be re-indexed and re-grouped freely):
    * laid out as a matrix of 32768 rows and 512 lanes, row `p` is row `r` of block `t` for exactly one
      pair with `p = 1024 · t + r`, so the sum over the matrix is the sum over the 32 blocks of each block's
      sum over its 1024 rows and 512 lanes (`sum_matrix`);
    * reshaping an array keeps its elements, only renaming their indices by a bijection, so a sum over the
      reshaped array's indices is the sum over the original's (`sum_shapeCast`).
-/
import Idealize.ShloMosaic.PureOps.Ideal.Laws
import Idealize.ShloMosaic.Lib.ValueIdx
import Idealize.ShloMosaic.Lib.IdealHost

noncomputable section

open Idealize.ShloMosaic Idealize.ShloMosaic.ValueIdx
open scoped BigOperators

namespace Cert.Bce

/-- The shift inside both logarithms: the extended real that the f32 word of `1e-7` denotes. -/
abbrev eps : EReal := Ideal.ofBits .f32 0x33D6BF95#32

/-- One element's loss, `l · log (σ x + ε) + (1 − l) · log ((1 − σ x) + ε)`. -/
def term (x l : EReal) : EReal :=
  l * Ideal.log (Ideal.logistic x + eps) + (1 - l) * Ideal.log (1 - Ideal.logistic x + eps)

/-- The loss summed over one block of 1024 rows and 512 lanes. -/
def blockSum (x l : (⟨2, ![1024, 512]⟩ : Shape).Idx → EReal) : EReal :=
  ∑ r : Fin 1024, ∑ q : Fin 512, term (x (ix2 r q)) (l (ix2 r q))

/-- The loss summed over the whole array, from zero: the number both programs negate and divide by the element count. -/
def lossTotal (x l : (⟨4, ![64, 1, 512, 512]⟩ : Shape).Idx → EReal) : EReal :=
  0 + ∑ i, term (x i) (l i)

/-- Row `r` of block `t` is row `1024 · t + r` of the matrix. -/
abbrev rowOf (t : Fin 32) (r : Fin 1024) : Fin 32768 :=
  ⟨1024 * t.val + r.val, by have := t.isLt; have := r.isLt; omega⟩

/-- Every row of the matrix is row `p % 1024` of block `p / 1024`, and of no other. -/
def rowEquiv : Fin 32 × Fin 1024 ≃ Fin 32768 where
  toFun p := rowOf p.1 p.2
  invFun p := (⟨p.val / 1024, by have := p.isLt; omega⟩, ⟨p.val % 1024, by omega⟩)
  left_inv p := by
    obtain ⟨t, r⟩ := p
    have := r.isLt
    refine Prod.ext (Fin.ext ?_) (Fin.ext ?_)
    · show (1024 * t.val + r.val) / 1024 = t.val
      omega
    · show (1024 * t.val + r.val) % 1024 = r.val
      omega
  right_inv p := by
    refine Fin.ext ?_
    show 1024 * (p.val / 1024) + p.val % 1024 = p.val
    omega

/-- A sum over the 32768 rows is the sum over the blocks of the sum over a block's rows. -/
theorem sum_rows {M : Type*} [AddCommMonoid M] (g : Fin 32768 → M) :
    ∑ p : Fin 32768, g p = ∑ t : Fin 32, ∑ r : Fin 1024, g (rowOf t r) := by
  rw [← Equiv.sum_comp rowEquiv g, Fintype.sum_prod_type]
  rfl

/-- A sum over the matrix is the sum over blocks, rows of the block, and lanes. -/
theorem sum_matrix {M : Type*} [AddCommMonoid M] (g : (⟨2, ![32768, 512]⟩ : Shape).Idx → M) :
    ∑ j, g j = ∑ t : Fin 32, ∑ r : Fin 1024, ∑ q : Fin 512, g (ix2 (rowOf t r) q) := by
  rw [sum_idx2, sum_rows]

/-- Reshaping renames indices by a bijection: a sum of any function of the reshaped arrays' entries over the
    new indices is the sum of that function of the original entries over the old ones. -/
theorem sum_shapeCast {s t : Shape} {α : Type} {M : Type*} [AddCommMonoid M] (h : s.ShapeCasts t) (x l : s.Idx → α)
    (f : α → α → M) :
    ∑ j : t.Idx, f (shapeCast t x h j) (shapeCast t l h j) = ∑ i : s.Idx, f (x i) (l i) :=
  Equiv.sum_comp (Shape.reshapeEquiv h) fun i => f (x i) (l i)

end Cert.Bce

end
-- ==== Proof.BlockLoss.lean ====
/-
  The body's sum value, read on the extended reals.

  The value the body stores is the accumulator plus a number computed from the two loaded blocks: the element
  losses of the block, summed along the lanes of each row (512 terms), the 1024 row sums then summed down the
  column, with two re-layouts in between that only rename indices (a vector of 1024 numbers viewed as a column,
  a vector of one number viewed as a 1 × 1 block). Read as exact sums these are
      acc + ∑ r, ∑ q, term (x r q) (l r q),
  the block's loss sum of the specification (`pay_apply`). The element loss is the specification's term on the
  nose: the body's sigmoid is the operation whose exact meaning is 1 / (1 + e⁻ˣ), and its constant one is the
  real number one.
-/
import proofs.«120789_j76184129897141_1_alg».proof.Proof.Gen.KernelIdeal.Skeleton
import proofs.«120789_j76184129897141_1_alg».proof.Proof.BceTerm
import Idealize.ShloMosaic.Lib.Pipeline.Value
import Idealize.ShloMosaic.PureOps.Ideal.Laws

noncomputable section

open Idealize.ShloMosaic Idealize.ShloMosaic.ValueIdx
open scoped BigOperators

namespace Cert.KernelIdeal.BceValue

open Cert.KernelIdeal Cert.KernelIdeal.Gen

/-- A sum along the lanes, read at row `r`: the 512 entries of that row added up. -/
theorem laneSum_apply (src : FVec Ideal S1024x512 .f32) (h : S1024x512.Reduces [1] S1024) (hφ : FKind.Formats FTy.f32)
    (hacc : (0x00000000#32 : BitVec 32) = FKind.add.neutral .f32 hφ) (r : Fin 1024) :
    multiReduction .add [1] S1024 src 0x00000000#32 h hφ hacc (ix1 r) = ∑ q : Fin 512, src (ix2 r q) :=
  (Ideal.multiReduction_add_single src 0x00000000#32 h hφ hacc (ix1 r)).trans
    (Finset.sum_congr rfl fun q _ => congrArg src (funext fun a => match a with | ⟨0, _⟩ => Fin.ext rfl | ⟨1, _⟩ => Fin.ext rfl))

/-- A sum down a column of 1024 entries: those entries added up. -/
theorem colSum_apply (src : FVec Ideal S1024x1 .f32) (h : S1024x1.Reduces [0] S1) (hφ : FKind.Formats FTy.f32)
    (hacc : (0x00000000#32 : BitVec 32) = FKind.add.neutral .f32 hφ) (u : Fin 1) :
    multiReduction .add [0] S1 src 0x00000000#32 h hφ hacc (ix1 u) = ∑ r : Fin 1024, src (ix2 r u) :=
  (Ideal.multiReduction_add_single src 0x00000000#32 h hφ hacc (ix1 u)).trans
    (Finset.sum_congr rfl fun r _ => congrArg src (funext fun a => match a with | ⟨0, _⟩ => Fin.ext rfl | ⟨1, _⟩ => Fin.ext rfl))

/-- A vector of 1024 entries viewed as a column: entry `r` of the column is entry `r` of the vector. -/
theorem column_apply {α : Type} (w : S1024.Idx → α) (h : S1024.ShapeCasts S1024x1) (r : Fin 1024) (u : Fin 1) :
    shapeCast S1024x1 w h (ix2 r u) = w (ix1 r) :=
  shapeCast_apply w h (ix2 r u) (ix1 r) (by
    rw [Shape.rowMajor_val_one, Shape.rowMajor_val_two]
    show r.val = r.val * 1 + u.val
    have := u.isLt
    omega)

/-- A vector of one entry viewed as a 1 × 1 block: its one entry. -/
theorem single_apply {α : Type} (w : S1.Idx → α) (h : S1.ShapeCasts S1x1) (y : S1x1.Idx) :
    shapeCast S1x1 w h y = w (ix1 0) :=
  shapeCast_apply w h y (ix1 0) (by
    rw [Shape.rowMajor_val_one, Shape.rowMajor_val_two]
    show (0 : Nat) = (y 0).val * 1 + (y 1).val
    have h0 : (y 0).val < 1 := (y 0).isLt
    have h1 : (y 1).val < 1 := (y 1).isLt
    omega)

/-- The stored value: the accumulator plus the block's loss sum. -/
theorem pay_apply (x l : Vec Ideal S1024x512 .f32) (acc : Vec Ideal S1x1 .f32) (y : S1x1.Idx) :
    k0_pay2 (F := Ideal) x l acc y = acc y + Cert.Bce.blockSum x l := by
  unfold k0_pay2
  dsimp only
  simp only [shapeCast_self]
  refine (addf_apply (s := S1x1) (φ := .f32) _ _ y).trans (congrArg (acc y + ·) ?_)
  refine (single_apply _ _ y).trans ?_
  refine (colSum_apply _ _ _ _ 0).trans ?_
  unfold Cert.Bce.blockSum
  refine Finset.sum_congr rfl fun r _ => ?_
  refine (column_apply _ _ r 0).trans ?_
  refine (laneSum_apply _ _ _ _ r).trans ?_
  refine Finset.sum_congr rfl fun q _ => ?_
  simp only [addf_apply, mulf_apply, subf_apply, broadcast_apply, log, logistic, Ideal.log_def, Ideal.logistic_def,
    Ideal.ofBits_def, Ideal.ofBits_one_f32]
  rfl

/-- The value the reset stores is zero. -/
theorem zero_apply (y : S1x1.Idx) : k0_pay1 (F := Ideal) y = 0 := by
  show Ideal.ofBits .f32 0x00000000#32 = 0
  exact Ideal.ofBits_zero_f32

end Cert.KernelIdeal.BceValue

end
-- ==== Proof.Accumulate.lean ====
/-
  The accumulator point by point.

  The grid has 32 points; point `t` is handed block `t` of each input (rows `1024 · t` to `1024 · t + 1023`), and the
  one-entry output block is carried from point to point. Unrolling the two cases over the points, the accumulator
  after point `n` is the body's sum value applied to block `n` and to the accumulator after point `n − 1`, starting
  at point 0 from the zero the reset stores (`chain`, `outsAt_eq`: an induction on the point, for any float
  interpretation).

  On the extended reals the body's sum value adds the block's loss sum to the accumulator, so the accumulator after
  point `n` is  0 + ∑_{t ≤ n} (loss sum of block t)  (`chain_apply`). The partial sums are indexed by natural
  numbers; a block number beyond the grid contributes zero, which never occurs below the grid's size.
-/
import proofs.«120789_j76184129897141_1_alg».proof.Proof.CaseValues
import proofs.«120789_j76184129897141_1_alg».proof.Proof.BlockLoss

noncomputable section

open Idealize.ShloMosaic Idealize.ShloMosaic.TcCoe Idealize.SL.Sem Idealize.ShloMosaic.ValueIdx
open scoped BigOperators

namespace Cert.KernelIdeal.BceValue

open Cert.KernelIdeal Cert.KernelIdeal.Gen

section AnyFloat

variable {F : FTy → Type} [FloatOps F]
variable (m : (ℓ : Loc nD τ sig) → Buf (Elt F) ℓ)

/-- The block of logits handed to point `t`, as a 1024 × 512 array. -/
abbrev xblk (c : Dev nD) (t : Fin cfg0.N) : Vec F S1024x512 .f32 := iblk m c 0 t
/-- The block of labels handed to point `t`. -/
abbrev lblk (c : Dev nD) (t : Fin cfg0.N) : Vec F S1024x512 .f32 := iblk m c 1 t

/-- The accumulator after point `n`: the body's sum value of block `n` over the accumulator before, from zero. -/
def chain (c : Dev nD) : (n : ℕ) → n < cfg0.N → Vec F S1x1 .f32
  | 0, h => k0_pay2 (xblk m c ⟨0, h⟩) (lblk m c ⟨0, h⟩) (k0_pay1 (F := F))
  | n + 1, h => k0_pay2 (xblk m c ⟨n + 1, h⟩) (lblk m c ⟨n + 1, h⟩) (chain c n (Nat.lt_of_succ_lt h))

/-- What the output's staging buffer holds after point `n` is that accumulator: point 0 is the reset case, every
    later point the carrying case over the point before. -/
theorem outsAt_eq (c : Dev nD) : ∀ (n : ℕ) (h : n < cfg0.N), outsAt0 m c n h = chain m c n h
  | 0, h => (outsAt0_A m c ⟨0, h⟩ rfl).trans (out_first ..)
  | n + 1, h => by
    have hN : cfg0.N = 32 := N_0
    have hB : ¬(⟨n + 1, h⟩ : Fin cfg0.N).val % 32 = 0 := by dsimp only; omega
    rw [outsAt0_B m c ⟨n + 1, h⟩ hB, out_later]
    show k0_pay2 _ _ (outsAt0 m c n _) = k0_pay2 _ _ (chain m c n _)
    rw [outsAt_eq c n]

end AnyFloat

variable (m : (ℓ : Loc nD τ sig) → Buf (Elt Ideal) ℓ)

/-- The loss sum of block `t` (zero for a number that is no block of the grid). -/
def blockLoss (c : Dev nD) (t : ℕ) : EReal :=
  if h : t < cfg0.N then Cert.Bce.blockSum (xblk m c ⟨t, h⟩) (lblk m c ⟨t, h⟩) else 0

/-- On the extended reals the accumulator after point `n` is zero plus the loss sums of blocks 0 to `n`. -/
theorem chain_apply (c : Dev nD) : ∀ (n : ℕ) (h : n < cfg0.N) (y : S1x1.Idx),
    chain m c n h y = 0 + ∑ t ∈ Finset.range (n + 1), blockLoss m c t
  | 0, h, y => by
    show k0_pay2 (F := Ideal) _ _ _ y = _
    rw [pay_apply, zero_apply, Finset.sum_range_one, blockLoss, dif_pos h]
  | n + 1, h, y => by
    show k0_pay2 (F := Ideal) _ _ (chain m c n _) y = _
    rw [pay_apply, chain_apply c n _ y, Finset.sum_range_succ _ (n + 1), blockLoss, dif_pos h, add_assoc]

end Cert.KernelIdeal.BceValue

end
-- ==== Proof.BlockReads.lean ====
/-
  Where a block's entries come from.

  Before the kernel runs, each argument array [64, 1, 512, 512] is reshaped to a matrix of 32768 rows and 512 lanes
  (`V_logits`, `V_labels`: the region finds the reshaped arrays as the two host reshapes left them). The index map of
  both input windows sends grid point `t` to block `(t, 0)` of that matrix, with blocks of 1024 rows and all 512 lanes
  (`idx_facts`, decided over the 32 points). So entry `(r, q)` of the block handed to point `t` is entry
  `(1024 · t + r, q)` of the matrix (`xblk_apply`, `lblk_apply`): a block coordinate is always
  block index × block size + the coordinate inside the block.
-/
import proofs.«120789_j76184129897141_1_alg».proof.Proof.Accumulate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.BceValue

open Cert.KernelIdeal Cert.KernelIdeal.Gen

variable {F : FTy → Type} [FloatOps F]
variable (m : (ℓ : Loc nD τ sig) → Buf (Elt F) ℓ)

/-- Both input windows take block `(t, 0)` at point `t`. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Entry `(r, q)` of the logits block of point `t` is entry `(1024 · t + r, q)` of the logits matrix. -/
theorem xblk_apply (c : Dev nD) (t : Fin cfg0.N) (r : Fin 1024) (q : Fin 512) (p : Fin 32768) (hp : p.val = 1024 * t.val + r.val) :
    xblk m c t (ix2 r q) = V m c main_v0 (ix2 p q) := by
  show ((cfg0.win 0).blk t).view.read (Elt F) (V m c (Pipeline.arrRef spec0 0)) (ix2 r q) = _
  rw [View.read_apply]
  show V m c main_v0 _ = V m c main_v0 _
  refine congrArg (V m c main_v0) (funext fun a => Fin.ext ?_)
  match a with
  | ⟨0, _⟩ => show win0_0.index t 0 * 1024 + 1 * r.val = p.val; rw [(idx_facts t).1, hp]; omega
  | ⟨1, _⟩ => show win0_0.index t 1 * 512 + 1 * q.val = q.val; rw [(idx_facts t).2.1]; omega

/-- The same for the labels. -/
theorem lblk_apply (c : Dev nD) (t : Fin cfg0.N) (r : Fin 1024) (q : Fin 512) (p : Fin 32768) (hp : p.val = 1024 * t.val + r.val) :
    lblk m c t (ix2 r q) = V m c main_v1 (ix2 p q) := by
  show ((cfg0.win 1).blk t).view.read (Elt F) (V m c (Pipeline.arrRef spec0 1)) (ix2 r q) = _
  rw [View.read_apply]
  show V m c main_v1 _ = V m c main_v1 _
  refine congrArg (V m c main_v1) (funext fun a => Fin.ext ?_)
  match a with
  | ⟨0, _⟩ => show win0_1.index t 0 * 1024 + 1 * r.val = p.val; rw [(idx_facts t).2.2.1, hp]; omega
  | ⟨1, _⟩ => show win0_1.index t 1 * 512 + 1 * q.val = q.val; rw [(idx_facts t).2.2.2]; omega

/-- The logits matrix the region finds is the first argument reshaped. -/
theorem V_logits (c : Dev nD) : (V m c main_v0 : S32768x512.Idx → Elt F .f32)
    = shapeCast S32768x512 (m ((c : Thread nD τ).loc main_arg0)) shapeCasts_S64x1x512x512_S32768x512 := by
  show StableHlo.after hostOps0 (fun b => m (c, b)) (Proc.devRef .tc main_v0) = _
  after_results
  rfl

/-- The labels matrix the region finds is the second argument reshaped. -/
theorem V_labels (c : Dev nD) : (V m c main_v1 : S32768x512.Idx → Elt F .f32)
    = shapeCast S32768x512 (m ((c : Thread nD τ).loc main_arg1)) shapeCasts_S64x1x512x512_S32768x512 := by
  show StableHlo.after hostOps0 (fun b => m (c, b)) (Proc.devRef .tc main_v1) = _
  after_results
  rfl

end Cert.KernelIdeal.BceValue

end
-- ==== Proof.KernelRun.lean ====
/-
  The kernel's run: what the result holds.

  The output window is written back once, after the last of the 32 points, and its one block is the whole 1 × 1
  result array (`whole_block`); so after the region that array holds the accumulator after point 31
  (`flushed_eq`, `final_total`). The host lines after the region view that entry as a scalar, negate it and divide by
  the constant 2²⁴ given as an f32 word (`tail_eq`). Every weakly fair execution therefore ends with the result at
  that value and the two arguments as they were (`run`), for any float interpretation.
-/
import proofs.«120789_j76184129897141_1_alg».proof.Proof.Accumulate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.BceValue

open Cert.KernelIdeal Cert.KernelIdeal.Gen

variable {F : FTy → Type} [FloatOps F]
variable (m : (ℓ : Loc nD τ sig) → Buf (Elt F) ℓ) (ρ : Dev nD → PrngReg)

/-- The last grid point. -/
abbrev tLast : Fin cfg0.N := ⟨31, by rw [show cfg0.N = 32 from N_0]; decide⟩

/-- The accumulator after the last point, as contents of the 1 × 1 result array. -/
abbrev total (c : Dev nD) : Buf (Elt F) ((c : Thread nD τ).loc main_v2) := chain m c 31 tLast.isLt

/-- The only write-back is at the last point, and it writes the final accumulator: the block at offset zero of a
    1 × 1 array read through the window is the array. -/
theorem flushed_eq (c : Dev nD) (t : Fin cfg0.N) (hf : (cfg0.win 2).flush t = true) :
    (dats m 0 c).flushed 2 t = ((cfg0.win 2).blk t).view.read (Elt F) (total m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_eq]
  have hz' : (fun a => win0_2.index tLast a * main_v2.ty.shape.size a) = fun _ => 0 := funext fun a => by fin_cases a <;> decide
  exact (Memref.read_access_unit_zero (Elt F) main_v2 hz' (fun a => by rw [congrFun hz' a]; simp) (total m c)).symm

/-- At the last point the output block starts at the origin and has one entry along each axis. -/
theorem whole_block : ∀ a : Fin 2, win0_2.index tLast a * win0_2.size a = 0 ∧ win0_2.xsize (grid0.coords tLast) a = 1 := by
  decide +kernel

/-- After the region the result array holds the final accumulator: the last point's block covers its one entry. -/
theorem final_total (c : Dev nD) : (dats m 0 c).arrAt 2 cfg0.N = total m c :=
  (dats m 0 c).arrAt_eq_of_cover 2 (total m c) (flushed_eq m c) fun i =>
    ⟨tLast, (flush0_2 tLast).mpr rfl, by
      show i ∈ ((View.whole main_v2).slice (win0_2.rect tLast)).set
      rw [View.set_slice_whole, Rect.mem_set_unit]
      intro a
      show win0_2.index tLast a * win0_2.size a ≤ (i a : Nat) ∧ (i a : Nat) < win0_2.index tLast a * win0_2.size a + win0_2.xsize (grid0.coords tLast) a
      rw [(whole_block a).1, (whole_block a).2]
      have : (i a : Nat) < 1 := by
        match a with
        | ⟨0, _⟩ => exact (i 0).isLt
        | ⟨1, _⟩ => exact (i 1).isLt
      omega⟩

/-- The host lines after the region: the entry as a scalar, negated, divided by the constant. -/
theorem tail_eq (c : Dev nD) : Pipeline.afterTail₀ cfgs (dats m) 0 (V0 m) [hostOps1] c main_v5
    = Host.divf (Host.negf (shapeCast S_ (total m c) shapeCasts_S1x1_S_)) (constant S_ .f32 0x4B800000#32) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2)
      = total m c := (Pipeline.withArrays_arr spec0 launch0.win.arr_inj c _ _ 2).trans (final_total m c)
  rw [e]
  rfl

/-- The run: the result at the tail's value of the final accumulator, the arguments unchanged. -/
theorem run : θ_run defs (onTc (τ := τ) (main (F := F))) ⟨m, fun _ => 0, ρ⟩ fun r => ∀ c : Dev nD,
      r.2.mem ((c.tc : Thread nD τ).loc main_v5)
        = Host.divf (Host.negf (shapeCast S_ (total m c) shapeCasts_S1x1_S_)) (constant S_ .f32 0x4B800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.BceValue

end
-- ==== Proof.KernelTotal.lean ====
/-
  The kernel's result on the extended reals is the total loss.

  The final accumulator is zero plus the loss sums of the 32 blocks. Block `t`'s loss sum runs over the entries
  `(1024 · t + r, q)` of the two reshaped matrices (`blockLoss_eq`), so the sum over the blocks is the sum over all
  entries of the matrices, and, the reshape only renaming indices, the sum over all elements of the two arguments
  (`total_apply`). Only re-indexing and re-grouping of a finite sum is used: no entry need be finite.
  The run then ends with the result at minus that total divided by the constant (`run_total`).
-/
import proofs.«120789_j76184129897141_1_alg».proof.Proof.BlockReads
import proofs.«120789_j76184129897141_1_alg».proof.Proof.KernelRun

noncomputable section

open Idealize.ShloMosaic Idealize.ShloMosaic.TcCoe Idealize.SL.Sem Idealize.ShloMosaic.ValueIdx
open Idealize.ShloMosaic.Pipeline (Dat)
open scoped BigOperators

namespace Cert.KernelIdeal.BceValue

open Cert.KernelIdeal Cert.KernelIdeal.Gen

variable (m : (ℓ : Loc nD τ sig) → Buf (Elt Ideal) ℓ) (ρ : Dev nD → PrngReg)

/-- Block `t`'s loss sum, over the entries of the reshaped arguments it was cut from. -/
theorem blockLoss_eq (c : Dev nD) (t : Fin 32) :
    blockLoss m c t.val = ∑ r : Fin 1024, ∑ q : Fin 512,
      Cert.Bce.term
        (shapeCast S32768x512 (m ((c : Thread nD τ).loc main_arg0)) shapeCasts_S64x1x512x512_S32768x512 (ix2 (Cert.Bce.rowOf t r) q))
        (shapeCast S32768x512 (m ((c : Thread nD τ).loc main_arg1)) shapeCasts_S64x1x512x512_S32768x512 (ix2 (Cert.Bce.rowOf t r) q)) := by
  have ht : t.val < cfg0.N := by rw [show cfg0.N = 32 from N_0]; exact t.isLt
  rw [blockLoss, dif_pos ht]
  unfold Cert.Bce.blockSum
  refine Finset.sum_congr rfl fun r _ => Finset.sum_congr rfl fun q _ => ?_
  rw [xblk_apply m c ⟨t.val, ht⟩ r q (Cert.Bce.rowOf t r) rfl, lblk_apply m c ⟨t.val, ht⟩ r q (Cert.Bce.rowOf t r) rfl,
    V_logits, V_labels]

/-- The final accumulator is the total loss of the two arguments. -/
theorem total_apply (c : Dev nD) (y : S1x1.Idx) :
    total m c y = Cert.Bce.lossTotal (m ((c : Thread nD τ).loc main_arg0)) (m ((c : Thread nD τ).loc main_arg1)) := by
  show chain m c 31 _ y = _
  rw [chain_apply]
  show (0 : EReal) + ∑ t ∈ Finset.range 32, blockLoss m c t = _
  rw [Finset.sum_range]
  unfold Cert.Bce.lossTotal
  refine congrArg ((0 : EReal) + ·) ?_
  refine (Finset.sum_congr rfl fun t _ => blockLoss_eq m c t).trans ?_
  refine (Cert.Bce.sum_matrix (fun j => Cert.Bce.term
      (shapeCast S32768x512 (m ((c : Thread nD τ).loc main_arg0)) shapeCasts_S64x1x512x512_S32768x512 j)
      (shapeCast S32768x512 (m ((c : Thread nD τ).loc main_arg1)) shapeCasts_S64x1x512x512_S32768x512 j))).symm.trans ?_
  exact Cert.Bce.sum_shapeCast shapeCasts_S64x1x512x512_S32768x512 (m ((c : Thread nD τ).loc main_arg0))
    (m ((c : Thread nD τ).loc main_arg1)) Cert.Bce.term

/-- The run on the extended reals: the result at minus the total loss over the constant, the arguments unchanged. -/
theorem run_total : θ_run defs (onTc (τ := τ) (main (F := Ideal))) ⟨m, fun _ => 0, ρ⟩ fun r => ∀ c : Dev nD,
      r.2.mem ((c.tc : Thread nD τ).loc main_v5)
        = Host.divf (F := Ideal) (Host.negf (F := Ideal) (fun _ : S_.Idx =>
            Cert.Bce.lossTotal (m ((c : Thread nD τ).loc main_arg0)) (m ((c : Thread nD τ).loc main_arg1))))
          (constant (F := Ideal) S_ .f32 0x4B800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans
      (congrArg (fun s : S_.Idx → Ideal .f32 => Host.divf (F := Ideal) (Host.negf (F := Ideal) s) (constant (F := Ideal) S_ .f32 0x4B800000#32))
        (funext fun i => total_apply m c _)), (h c).2⟩)
    (run m ρ)

end Cert.KernelIdeal.BceValue

end
-- ==== Proof.RefLoss.lean ====
/-
  The reference, read on the extended reals.

  The reference computes the element losses over the whole [64, 1, 512, 512] array and sums them all at once from
  zero. Element by element its sigmoid is spelt out as 1 / (1 + e^(−x)), which is what the specification's σ means,
  and its constant one is the real number one; so each summand is the specification's term (`loss_apply`) and the
  sum is the specification's total (`sum_eq_total`).
-/
import proofs.«120789_j76184129897141_1_alg».proof.Proof.Gen.ReferenceIdeal.Read
import proofs.«120789_j76184129897141_1_alg».proof.Proof.BceTerm
import Idealize.ShloMosaic.Lib.IdealHost

noncomputable section

open Idealize.ShloMosaic Idealize.ShloMosaic.ValueIdx
open scoped BigOperators

namespace Cert.ReferenceIdeal.RefLoss

open Cert.ReferenceIdeal Cert.ReferenceIdeal.Read

/-- One element of the reference's summand is the element's loss. -/
theorem loss_apply (x l : (⟨S64x1x512x512, .f32⟩ : BufTy).Contents (Elt Ideal)) (i : S64x1x512x512.Idx) :
    val_main_v18 (F := Ideal) x l i = Cert.Bce.term (x i) (l i) := by
  simp only [val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    val_main_cst_2_apply, val_main_cst_3_apply, val_main_cst_4_apply,
    Ideal.addf_def, Ideal.subf_def, Ideal.mulf_def, Ideal.hostDivf_def, Ideal.hostUnary_log_def, Ideal.hostUnary_exp_def,
    Ideal.hostNegf_def, Ideal.negf_def, Ideal.ofBits_def, Ideal.ofBits_one_f32]
  rfl

/-- The reference's sum over all elements, from zero, is the total loss. -/
theorem sum_eq_total (x l : (⟨S64x1x512x512, .f32⟩ : BufTy).Contents (Elt Ideal)) :
    val_main_v19 (F := Ideal) x l = fun _ => Cert.Bce.lossTotal x l := by
  funext i
  rw [val_main_v19_apply, val_main_cst_5_apply]
  simp only [Ideal.ofBits_def, Ideal.ofBits_zero_f32, loss_apply]
  rfl

end Cert.ReferenceIdeal.RefLoss

end
-- ==== Proof.lean ====
/-
  A weighted binary cross-entropy of logits against labels, averaged over a [64, 1, 512, 512] array: for a logit `x`
  and a label `l` the element loss is  l · log (σ x + ε) + (1 − l) · log ((1 − σ x) + ε)  with σ the sigmoid, and the
  result is minus the sum of all element losses divided by their number, 2²⁴.

  The kernel reshapes both arrays to 32768 × 512 matrices, walks 32 blocks of 1024 rows, adds each block's loss sum
  into a one-entry accumulator that is reset at the first block and written back after the last, and negates and
  divides on the host. The reference computes the element losses of the whole array and sums them in one reduction.
  On the extended reals the two agree: the element losses are the same expression (the kernel's sigmoid operation
  means 1 / (1 + e⁻ˣ), which the reference spells out; the shift ε and the divisor are the same f32 words on both
  sides), and the kernel's blockwise accumulation is a re-grouping and re-indexing of the reference's one sum, which
  a finite sum in a commutative monoid allows whether or not its terms are finite. So the precondition (finite
  inputs) is not used by the value argument.

  The modules: BceTerm (the element loss, the total, and the two re-indexing facts), CaseValues and BlockLoss (what
  one grid point does to the accumulator, named and then read as exact sums), Accumulate (the accumulator after each
  point), BlockReads (which matrix entries a block holds), KernelRun (the result after the write-back and the host
  lines), KernelTotal (the result is minus the total over the divisor), RefLoss (the reference's sum is the total).
  The kernel's and the idealized kernel's frames are the generated ones; the reference's frame is its generated run
  with the result dropped; the idealization rewrote nothing, so it preserves the kernel trivially.
-/
import proofs.«120789_j76184129897141_1_alg».proof.Defs
import proofs.«120789_j76184129897141_1_alg».proof.Proof.Gen.Kernel
import proofs.«120789_j76184129897141_1_alg».proof.Proof.Gen.Kernel.Skeleton
import proofs.«120789_j76184129897141_1_alg».proof.Proof.Gen.Kernel.Launch
import proofs.«120789_j76184129897141_1_alg».proof.Proof.Gen.Kernel.Points
import proofs.«120789_j76184129897141_1_alg».proof.Proof.Gen.Kernel.Frame
import proofs.«120789_j76184129897141_1_alg».proof.Proof.Gen.KernelIdeal
import proofs.«120789_j76184129897141_1_alg».proof.Proof.Gen.KernelIdeal.Skeleton
import proofs.«120789_j76184129897141_1_alg».proof.Proof.Gen.KernelIdeal.Launch
import proofs.«120789_j76184129897141_1_alg».proof.Proof.Gen.KernelIdeal.Points
import proofs.«120789_j76184129897141_1_alg».proof.Proof.Gen.KernelIdeal.Frame
import proofs.«120789_j76184129897141_1_alg».proof.Proof.Gen.ReferenceIdeal
import proofs.«120789_j76184129897141_1_alg».proof.Proof.Gen.Pre_finite_inputs
import proofs.«120789_j76184129897141_1_alg».proof.Proof.Gen.ReferenceIdeal.Run
import proofs.«120789_j76184129897141_1_alg».proof.Proof.Gen.ReferenceIdeal.Read
import proofs.«120789_j76184129897141_1_alg».proof.Proof.KernelTotal
import proofs.«120789_j76184129897141_1_alg».proof.Proof.RefLoss
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: it runs, and its run keeps the arguments. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs end with the result at minus the total loss of the arguments over the same divisor. -/
theorem algebraic : Cert.algebraic_KernelIdeal_ReferenceIdeal := by
  intro m ρ m' ρ' _ hagree
  refine ⟨_, Cert.KernelIdeal.BceValue.run_total m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  unfold Cert.ReferenceIdeal.Read.val_main_v21 Cert.ReferenceIdeal.Read.val_main_v20 Cert.ReferenceIdeal.Read.val_main_cst_6
  rw [Cert.ReferenceIdeal.RefLoss.sum_eq_total, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
